-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  main_v3
-- ==== Kernel.lean ====
abbrev S8x2048x2048 : Shape := ⟨3, ![8, 2048, 2048]⟩
abbrev S_ : Shape := ⟨0, ![]⟩
abbrev S8x2050x2050 : Shape := ⟨3, ![8, 2050, 2050]⟩
abbrev S8x2048x10240 : Shape := ⟨3, ![8, 2048, 10240]⟩
abbrev S1x2050x2050 : Shape := ⟨3, ![1, 2050, 2050]⟩
abbrev S1x64x10240 : Shape := ⟨3, ![1, 64, 10240]⟩
abbrev S1x66x2050 : Shape := ⟨3, ![1, 66, 2050]⟩
abbrev S66x2050 : Shape := ⟨2, ![66, 2050]⟩
abbrev S64x2048 : Shape := ⟨2, ![64, 2048]⟩
abbrev S64x2048x1 : Shape := ⟨3, ![64, 2048, 1]⟩
abbrev S64x2048x5 : Shape := ⟨3, ![64, 2048, 5]⟩
abbrev S64x10240 : Shape := ⟨2, ![64, 10240]⟩
abbrev S8x2048x2048x5 : Shape := ⟨4, ![8, 2048, 2048, 5]⟩

abbrev nBuf : Space → Nat
  | .hbm => 6
  | .vmem => 3
  | .smem => 0
  | _ => 0

abbrev bufTy : (tb : Table) → Fin (tcTables nBuf tb) → BufTy
  | .hbm, ⟨0, _⟩ => ⟨S8x2048x2048, .f32⟩
  | .hbm, ⟨1, _⟩ => ⟨S_, .i32⟩
  | .hbm, ⟨2, _⟩ => ⟨S_, .f32⟩
  | .hbm, ⟨3, _⟩ => ⟨S8x2050x2050, .f32⟩
  | .hbm, ⟨4, _⟩ => ⟨S8x2048x10240, .f32⟩
  | .hbm, ⟨5, _⟩ => ⟨S8x2048x2048x5, .f32⟩
  | .local _ .vmem, ⟨0, _⟩ => ⟨S1x2050x2050, .f32⟩
  | .local _ .vmem, ⟨1, _⟩ => ⟨S1x64x10240, .f32⟩
  | .local _ .vmem, ⟨2, _⟩ => ⟨S1x64x10240, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 3 → Nat :=
  let c0 : Index := 0#32
  let arg1 : BitVec 32 := BitVec.ofNat 32 (i 1).val
  let c64_i32 : BitVec 32 := 64#32
  let v0 : BitVec 32 := Scalar.muli arg1 c64_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2050x2050 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x64x10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S8x2048x2048_S8x2050x2050_000_110_110 : S8x2048x2048.Pads (![0, 1, 1] : Fin 3 → Nat) ![0, 1, 1] ![0, 0, 0] S8x2050x2050
  h_S_ : 0 < S_.numel
  h_S1x66x2050 : 0 < S1x66x2050.numel
  shapeCasts_S1x66x2050_S66x2050 : S1x66x2050.ShapeCasts S66x2050
  slices_S66x2050_o0_1_S64x2048 : S66x2050.Slices ![0, 1] S64x2048
  slices_S66x2050_o2_1_S64x2048 : S66x2050.Slices ![2, 1] S64x2048
  slices_S66x2050_o1_1_S64x2048 : S66x2050.Slices ![1, 1] S64x2048
  slices_S66x2050_o1_0_S64x2048 : S66x2050.Slices ![1, 0] S64x2048
  slices_S66x2050_o1_2_S64x2048 : S66x2050.Slices ![1, 2] S64x2048
  shapeCasts_S64x2048_S64x2048x1 : S64x2048.ShapeCasts S64x2048x1
  concatenates_S64x2048x1_S64x2048x1_S64x2048x1_S64x2048x1_S64x2048x1_S64x2048x5_d2 : Shape.Concatenates [S64x2048x1, S64x2048x1, S64x2048x1, S64x2048x1, S64x2048x1] S64x2048x5 2
  shapeCasts_S64x2048x5_S64x10240 : S64x2048x5.ShapeCasts S64x10240
  inb_S1x64x10240_S1x64x10240_0_0_0 : ∀ a, (![0, 0, 0] : Fin 3 → Nat) a + S1x64x10240.size a ≤ S1x64x10240.size a
  h_S1x64x10240 : 0 < S1x64x10240.numel
  shapeCasts_S1x64x10240_S64x10240 : S1x64x10240.ShapeCasts S64x10240
  shapeCasts_S64x10240_S1x64x10240 : S64x10240.ShapeCasts S1x64x10240
  shapeCasts_S8x2048x10240_S8x2048x2048x5 : S8x2048x10240.ShapeCasts S8x2048x2048x5
  hrank0 : 0 < grid0.rank
  k0_mult1_dvd : ∀ i : grid0.Coords, 64 ∣ (k0_mult1 i).toNat
  k0_off1_inb : ∀ i : grid0.Coords, ∀ a, (k0_off1 i) a + S1x66x2050.size a ≤ S1x2050x2050.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2050x2050.size a ≤ S8x2050x2050.size a
  hwx0_0 : ∀ i : grid0.Coords, EltTy.bits .f32 = 32 ∨ (Rect.block (s := S8x2050x2050) S1x2050x2050.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x10240.size a ≤ S8x2048x10240.size a
  hwx0_1 : ∀ i : grid0.Coords, EltTy.bits .f32 = 32 ∨ (Rect.block (s := S8x2048x10240) S1x64x10240.size (cc0_transform_1 i) (hinb0_1 i)).WholeWords (EltTy.packing .f32)

variable [Facts₀]

abbrev win0_0 : Pipeline.Window sig grid0 :=
  Pipeline.Window.ofSpec (Memref.whole main_v0) S1x2050x2050.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x10240.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S_ : Shape := ⟨0, ![]⟩
abbrev S8x2050x2050 : Shape := ⟨3, ![8, 2050, 2050]⟩
abbrev S8x2048x2048x1 : Shape := ⟨4, ![8, 2048, 2048, 1]⟩
abbrev S8x2048x2048x5 : Shape := ⟨4, ![8, 2048, 2048, 5]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S_, .i32⟩
  | .hbm, ⟨2, _⟩ => ⟨S_, .f32⟩
  | .hbm, ⟨3, _⟩ => ⟨S8x2050x2050, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048x1, .f32⟩
  | .hbm, ⟨32, _⟩ => ⟨S8x2048x2048x1, .f32⟩
  | .hbm, ⟨33, _⟩ => ⟨S8x2048x2048x1, .f32⟩
  | .hbm, ⟨34, _⟩ => ⟨S8x2048x2048x1, .f32⟩
  | .hbm, ⟨35, _⟩ => ⟨S8x2048x2048x1, .f32⟩
  | .hbm, ⟨36, _⟩ => ⟨S8x2048x2048x5, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  pads_S8x2048x2048_S8x2050x2050_000_110_110 : S8x2048x2048.Pads (![0, 1, 1] : Fin 3 → Nat) ![0, 1, 1] ![0, 0, 0] S8x2050x2050
  h_S_ : 0 < S_.numel
  slices_S8x2050x2050_S8x2048x2048_0_0_1 : S8x2050x2050.Slices ![0, 0, 1] S8x2048x2048
  slices_S8x2050x2050_S8x2048x2048_0_2_1 : S8x2050x2050.Slices ![0, 2, 1] S8x2048x2048
  slices_S8x2050x2050_S8x2048x2048_0_1_0 : S8x2050x2050.Slices ![0, 1, 0] S8x2048x2048
  slices_S8x2050x2050_S8x2048x2048_0_1_2 : S8x2050x2050.Slices ![0, 1, 2] S8x2048x2048
  bcast_S_S8x2048x2048 : S_.BroadcastsInDim S8x2048x2048 (![] : Fin 0 → Fin S8x2048x2048.rank)
  bcast_S8x2048x2048_S8x2048x2048x1_0_1_2 : S8x2048x2048.BroadcastsInDim S8x2048x2048x1 (![0, 1, 2] : Fin 3 → Fin S8x2048x2048x1.rank)
  concatenates_S8x2048x2048x1_S8x2048x2048x1_S8x2048x2048x1_S8x2048x2048x1_S8x2048x2048x1_S8x2048x2048x5_d3 : Shape.Concatenates [S8x2048x2048x1, S8x2048x2048x1, S8x2048x2048x1, S8x2048x2048x1, S8x2048x2048x1] S8x2048x2048x5 3

variable [Facts₀]

class Facts : Prop extends Facts₀ where

variable [Facts]
-- ==== Proof.Spec.lean ====
/-
  The five spatial features of a batch of images, as ONE function of the zero-padded array.

  `P` is the image batch with a one-pixel border added on both spatial axes, so pixel `(i, j)` of image `b` sits at
  `P (b, i + 1, j + 1)` and its four neighbours at `P (b, i, j + 1)` (above), `P (b, i + 2, j + 1)` (below),
  `P (b, i + 1, j)` (left) and `P (b, i + 1, j + 2)` (right).  From those five numbers each pixel gets
    channel 0   the five-point Laplacian  ((above + below) + left) + right - 4 * centre,
    channel 1   the horizontal central difference  1/2 * (right - left),
    channel 2   the vertical central difference    1/2 * (below - above),
    channel 3   the square of the centre,
    channel 4   the regularised gradient magnitude  sqrt (gx * gx + gy * gy + eps),
  all on the extended reals, in exactly this order of operations (no law of arithmetic is used anywhere below, so
  infinite entries need no separate treatment).  The three float constants stay as the words the programs print.
-/
import Idealize.ShloMosaic.PureOps.Ideal
import Idealize.ShloMosaic.Lib.ValueIdx
import Idealize.ShloMosaic.Lib.Pipeline.Value
import Idealize.ShloMosaic.Lib.KernelVsHost

noncomputable section

namespace Cert.Stencil

open Idealize.ShloMosaic Idealize.ShloMosaic.ValueIdx

/-- The padded batch, the batch, and the result with its trailing channel axis. -/
abbrev SP : Shape := ⟨3, ![8, 2050, 2050]⟩
abbrev SX : Shape := ⟨3, ![8, 2048, 2048]⟩
abbrev SR : Shape := ⟨4, ![8, 2048, 2048, 5]⟩

/-- The constants 4, 1/2 and the regulariser, as the patterns both programs carry. -/
abbrev four : EReal := Ideal.ofBits .f32 0x40800000#32
abbrev half : EReal := Ideal.ofBits .f32 0x3F000000#32
abbrev eps : EReal := Ideal.ofBits .f32 0x322BCC77#32

/-- The Laplacian, the two central differences, the square and the gradient magnitude at one pixel, from the values
    above (`u`), below (`d`), left (`l`), right (`r`) of it and at it (`c`). -/
def lap (u d l r c : EReal) : EReal := u + d + l + r - four * c
def gx (l r : EReal) : EReal := half * (r - l)
def gy (u d : EReal) : EReal := half * (d - u)
def square (c : EReal) : EReal := c * c
def mag (u d l r : EReal) : EReal := Ideal.sqrt (gx l r * gx l r + gy u d * gy u d + eps)

/-- Channel `k` of one pixel. -/
def feat (u d l r c : EReal) (k : Fin 5) : EReal :=
  match k with
  | 0 => lap u d l r c
  | 1 => gx l r
  | 2 => gy u d
  | 3 => square c
  | 4 => mag u d l r

/-- The neighbours of pixel `(i, j)` of image `b` in the padded array. -/
def up (P : SP.Idx → EReal) (b : Fin 8) (i j : Fin 2048) : EReal := P (ix3 b ⟨i.val, by omega⟩ ⟨j.val + 1, by omega⟩)
def down (P : SP.Idx → EReal) (b : Fin 8) (i j : Fin 2048) : EReal := P (ix3 b ⟨i.val + 2, by omega⟩ ⟨j.val + 1, by omega⟩)
def left (P : SP.Idx → EReal) (b : Fin 8) (i j : Fin 2048) : EReal := P (ix3 b ⟨i.val + 1, by omega⟩ ⟨j.val, by omega⟩)
def right (P : SP.Idx → EReal) (b : Fin 8) (i j : Fin 2048) : EReal := P (ix3 b ⟨i.val + 1, by omega⟩ ⟨j.val + 2, by omega⟩)
def centre (P : SP.Idx → EReal) (b : Fin 8) (i j : Fin 2048) : EReal := P (ix3 b ⟨i.val + 1, by omega⟩ ⟨j.val + 1, by omega⟩)

/-- The whole result: channel `k` of pixel `(i, j)` of image `b`. -/
def G (P : SP.Idx → EReal) : SR.Idx → EReal := fun y =>
  feat (up P (y 0) (y 1) (y 2)) (down P (y 0) (y 1) (y 2)) (left P (y 0) (y 1) (y 2)) (right P (y 0) (y 1) (y 2))
    (centre P (y 0) (y 1) (y 2)) (y 3)

theorem G_apply (P : SP.Idx → EReal) (b : Fin 8) (i j : Fin 2048) (k : Fin 5) :
    G P (ix4 b i j k) = feat (up P b i j) (down P b i j) (left P b i j) (right P b i j) (centre P b i j) k := rfl

/-! ## The padded array -/

/-- The scalar shape of the padding value. -/
abbrev S0 : Shape := ⟨0, ![]⟩

theorem pads : SX.Pads (![0, 1, 1] : Fin 3 → Nat) ![0, 1, 1] ![0, 0, 0] SP := by decide
theorem S0_pos : 0 < S0.numel := by decide

/-- The batch with one border pixel on each side of both spatial axes, the border holding the integer 0 converted to a
    float: the array both programs build first and take every neighbour from. -/
def padded (x : FVec Ideal SX .f32) : FVec Ideal SP .f32 :=
  pad SP ![0, 1, 1] ![0, 1, 1] ![0, 0, 0] x (sitofp (F := Ideal) .f32 (constantI S0 32 0#32)) pads S0_pos

/-- Inside the border the padded array is the batch: its entry `(b, i + 1, j + 1)` is pixel `(i, j)` of image `b`. -/
theorem padded_inside (x : FVec Ideal SX .f32) (b : Fin 8) (i j : Fin 2048) :
    padded x (ix3 b ⟨i.val + 1, by omega⟩ ⟨j.val + 1, by omega⟩) = x (ix3 b i j) :=
  pad_apply_of_inside _ _ _ x _ pads S0_pos _ (ix3 b i j) (fun a => match a with
    | ⟨0, _⟩ => by show b.val = 0 + b.val * (0 + 1); omega
    | ⟨1, _⟩ => by show i.val + 1 = 1 + i.val * (0 + 1); omega
    | ⟨2, _⟩ => by show j.val + 1 = 1 + j.val * (0 + 1); omega)

theorem centre_padded (x : FVec Ideal SX .f32) (b : Fin 8) (i j : Fin 2048) : centre (padded x) b i j = x (ix3 b i j) :=
  padded_inside x b i j

/-! ## The same result with the channel axis merged into the column axis -/

/-- The result laid out with five consecutive lanes per pixel: lane `5 j + k` of row `i` is channel `k` of pixel `(i, j)`. -/
abbrev SF : Shape := ⟨3, ![8, 2048, 10240]⟩

/-- The pixel column and the channel a lane belongs to. -/
def col (n : Fin 10240) : Fin 2048 := ⟨n.val / 5, by omega⟩
def chan (n : Fin 10240) : Fin 5 := ⟨n.val % 5, Nat.mod_lt _ (by decide)⟩

/-- Lane `5 j + k`. -/
def lane (j : Fin 2048) (k : Fin 5) : Fin 10240 := ⟨j.val * 5 + k.val, by omega⟩

theorem col_lane (j : Fin 2048) (k : Fin 5) : col (lane j k) = j := Fin.ext (by show (j.val * 5 + k.val) / 5 = j.val; omega)
theorem chan_lane (j : Fin 2048) (k : Fin 5) : chan (lane j k) = k := Fin.ext (by show (j.val * 5 + k.val) % 5 = k.val; omega)
theorem lane_col_chan (n : Fin 10240) : lane (col n) (chan n) = n :=
  Fin.ext (by show n.val / 5 * 5 + n.val % 5 = n.val; omega)

def Gflat (P : SP.Idx → EReal) : SF.Idx → EReal := fun y =>
  feat (up P (y 0) (y 1) (col (y 2))) (down P (y 0) (y 1) (col (y 2))) (left P (y 0) (y 1) (col (y 2)))
    (right P (y 0) (y 1) (col (y 2))) (centre P (y 0) (y 1) (col (y 2))) (chan (y 2))

theorem Gflat_apply (P : SP.Idx → EReal) (b : Fin 8) (i j : Fin 2048) (k : Fin 5) :
    Gflat P (ix3 b i (lane j k)) = feat (up P b i j) (down P b i j) (left P b i j) (right P b i j) (centre P b i j) k := by
  show feat (up P b i (col (lane j k))) (down P b i (col (lane j k))) (left P b i (col (lane j k)))
    (right P b i (col (lane j k))) (centre P b i (col (lane j k))) (chan (lane j k)) = _
  rw [col_lane, chan_lane]

/-- Splitting each row's lanes back into (pixel, channel), which keeps every entry's row-major position, turns the
    merged layout into the result. -/
theorem cast_Gflat (P : SP.Idx → EReal) (h : SF.ShapeCasts SR) : shapeCast SR (Gflat P) h = G P := by
  funext y
  obtain ⟨b, i, j, k, rfl⟩ : ∃ (b : Fin 8) (i j : Fin 2048) (k : Fin 5), y = ix4 b i j k := ⟨y 0, y 1, y 2, y 3, eq_ix4 y⟩
  refine (shapeCast_apply (Gflat P) h (ix4 b i j k) (ix3 b i (lane j k)) ?_).trans ?_
  · rw [Shape.rowMajor_val_three, Shape.rowMajor_val_four]
    show (b.val * 2048 + i.val) * 10240 + (j.val * 5 + k.val) = ((b.val * 2048 + i.val) * 2048 + j.val) * 5 + k.val
    omega
  · rw [Gflat_apply, G_apply]

end Cert.Stencil

end
-- ==== Proof.Layout.lean ====
/-
  Three facts about how one tile of the result is laid out, over ANY vectors of the tile's shapes.

  A tile is 64 rows of 2048 pixels.  Its five channel planes are each given a trailing axis of extent one, joined along
  that axis into a [64, 2048, 5] array, and the last two axes are then merged, so lane `5 q + k` of row `r` holds
  channel `k` of pixel `(r, q)` (`stack_apply`).  Each neighbour plane is a [64, 2048] sub-rectangle, at row and column
  offsets between 0 and 2, of the tile's [66, 2050] window of the padded array (`window_apply`).  And on the extended
  reals the arithmetic that makes each channel plane from the neighbour planes is entrywise (`lap_apply` … `mag_apply`).
-/
import proofs.«133201_j65764539236415_1_alg».proof.Proof.Spec
import Idealize.ShloMosaic.Lib.ValueLayout

noncomputable section

namespace Cert.Stencil

open Idealize.ShloMosaic Idealize.ShloMosaic.ValueIdx

/-- A plane of a tile, the same with a trailing unit axis, the five joined, the merged tile, and the merged tile with
    its leading unit axis; the tile's window of the padded array with and without that axis. -/
abbrev TP : Shape := ⟨2, ![64, 2048]⟩
abbrev TP1 : Shape := ⟨3, ![64, 2048, 1]⟩
abbrev TP5 : Shape := ⟨3, ![64, 2048, 5]⟩
abbrev TM : Shape := ⟨2, ![64, 10240]⟩
abbrev TM1 : Shape := ⟨3, ![1, 64, 10240]⟩
abbrev TW : Shape := ⟨2, ![66, 2050]⟩
abbrev TW1 : Shape := ⟨3, ![1, 66, 2050]⟩
/-- A channel plane of the whole batch with its trailing unit axis. -/
abbrev SR1 : Shape := ⟨4, ![8, 2048, 2048, 1]⟩

section
variable {α : Type}

/-- The `k`-th of five arrays over one index type. -/
def pick {ι : Type} (a0 a1 a2 a3 a4 : ι → α) (k : Fin 5) : ι → α :=
  match k with
  | 0 => a0
  | 1 => a1
  | 2 => a2
  | 3 => a3
  | 4 => a4

/-- A plane given a trailing unit axis reads, at `(r, q, 0)`, the plane at `(r, q)`: the same row-major position. -/
theorem unit_apply (a : TP.Idx → α) (h : TP.ShapeCasts TP1) (r : Fin 64) (q : Fin 2048) (z : Fin 1) :
    shapeCast TP1 a h (ix3 r q z) = a (ix2 r q) :=
  shapeCast_apply a h _ _ (by
    have hz : z.val = 0 := by omega
    rw [Shape.rowMajor_val_two, Shape.rowMajor_val_three]
    show r.val * 2048 + q.val = (r.val * 2048 + q.val) * 1 + z.val
    omega)

/-- The five planes joined along the new axis read, at `(r, q, k)`, plane `k` at `(r, q)`. -/
theorem join_apply (a0 a1 a2 a3 a4 : TP.Idx → α) (h : TP.ShapeCasts TP1)
    (hc : Shape.Concatenates [TP1, TP1, TP1, TP1, TP1] TP5 2) (r : Fin 64) (q : Fin 2048) (k : Fin 5) :
    concatenate TP5 2 [⟨TP1, shapeCast TP1 a0 h⟩, ⟨TP1, shapeCast TP1 a1 h⟩, ⟨TP1, shapeCast TP1 a2 h⟩,
      ⟨TP1, shapeCast TP1 a3 h⟩, ⟨TP1, shapeCast TP1 a4 h⟩] hc (ix3 r q k) = pick a0 a1 a2 a3 a4 k (ix2 r q) := by
  have hi : ∀ b : Fin TP1.rank, b.cast (rfl : TP1.rank = TP5.rank) ≠ (2 : Fin TP5.rank) →
      ((ix3 r q (0 : Fin 1) : TP1.Idx) b).val = ((ix3 r q k : TP5.Idx) (b.cast rfl)).val := fun b hb =>
    match b, hb with
    | ⟨0, _⟩, _ => rfl
    | ⟨1, _⟩, _ => rfl
    | ⟨2, _⟩, hb => absurd rfl hb
  match k with
  | ⟨0, hK⟩ =>
    refine Eq.trans (concatenate_apply_piece (t := TP5) 2 _ _ (ix3 r q ⟨0, hK⟩) 0 ?_ TP1 _ rfl rfl 0 ?_ (ix3 r q 0) hi rfl)
      (unit_apply a0 h r q 0)
    · show (0 : Nat) < 5; decide
    · rfl
  | ⟨1, hK⟩ =>
    refine Eq.trans (concatenate_apply_piece (t := TP5) 2 _ _ (ix3 r q ⟨1, hK⟩) 1 ?_ TP1 _ rfl rfl 1 ?_ (ix3 r q 0) hi rfl)
      (unit_apply a1 h r q 0)
    · show (1 : Nat) < 5; decide
    · rfl
  | ⟨2, hK⟩ =>
    refine Eq.trans (concatenate_apply_piece (t := TP5) 2 _ _ (ix3 r q ⟨2, hK⟩) 2 ?_ TP1 _ rfl rfl 2 ?_ (ix3 r q 0) hi rfl)
      (unit_apply a2 h r q 0)
    · show (2 : Nat) < 5; decide
    · rfl
  | ⟨3, hK⟩ =>
    refine Eq.trans (concatenate_apply_piece (t := TP5) 2 _ _ (ix3 r q ⟨3, hK⟩) 3 ?_ TP1 _ rfl rfl 3 ?_ (ix3 r q 0) hi rfl)
      (unit_apply a3 h r q 0)
    · show (3 : Nat) < 5; decide
    · rfl
  | ⟨4, hK⟩ =>
    refine Eq.trans (concatenate_apply_piece (t := TP5) 2 _ _ (ix3 r q ⟨4, hK⟩) 4 ?_ TP1 _ rfl rfl 4 ?_ (ix3 r q 0) hi rfl)
      (unit_apply a4 h r q 0)
    · show (4 : Nat) < 5; decide
    · rfl

/-- The whole-batch form of the join: five [8, 2048, 2048, 1] arrays joined along their last axis read, at
    `(b, i, j, k)`, array `k` at `(b, i, j, 0)`. -/
theorem join4_apply (p0 p1 p2 p3 p4 : SR1.Idx → α) (hc : Shape.Concatenates [SR1, SR1, SR1, SR1, SR1] SR 3)
    (b : Fin 8) (i j : Fin 2048) (k : Fin 5) :
    concatenate SR 3 [⟨SR1, p0⟩, ⟨SR1, p1⟩, ⟨SR1, p2⟩, ⟨SR1, p3⟩, ⟨SR1, p4⟩] hc (ix4 b i j k)
      = pick p0 p1 p2 p3 p4 k (ix4 b i j (0 : Fin 1)) := by
  have hi : ∀ a : Fin SR1.rank, a.cast (rfl : SR1.rank = SR.rank) ≠ (3 : Fin SR.rank) →
      ((ix4 b i j (0 : Fin 1) : SR1.Idx) a).val = ((ix4 b i j k : SR.Idx) (a.cast rfl)).val := fun a ha =>
    match a, ha with
    | ⟨0, _⟩, _ => rfl
    | ⟨1, _⟩, _ => rfl
    | ⟨2, _⟩, _ => rfl
    | ⟨3, _⟩, ha => absurd rfl ha
  match k with
  | ⟨0, hK⟩ =>
    refine concatenate_apply_piece (t := SR) 3 _ _ (ix4 b i j ⟨0, hK⟩) 0 ?_ SR1 _ rfl rfl 0 ?_ (ix4 b i j 0) hi rfl
    · show (0 : Nat) < 5; decide
    · rfl
  | ⟨1, hK⟩ =>
    refine concatenate_apply_piece (t := SR) 3 _ _ (ix4 b i j ⟨1, hK⟩) 1 ?_ SR1 _ rfl rfl 1 ?_ (ix4 b i j 0) hi rfl
    · show (1 : Nat) < 5; decide
    · rfl
  | ⟨2, hK⟩ =>
    refine concatenate_apply_piece (t := SR) 3 _ _ (ix4 b i j ⟨2, hK⟩) 2 ?_ SR1 _ rfl rfl 2 ?_ (ix4 b i j 0) hi rfl
    · show (2 : Nat) < 5; decide
    · rfl
  | ⟨3, hK⟩ =>
    refine concatenate_apply_piece (t := SR) 3 _ _ (ix4 b i j ⟨3, hK⟩) 3 ?_ SR1 _ rfl rfl 3 ?_ (ix4 b i j 0) hi rfl
    · show (3 : Nat) < 5; decide
    · rfl
  | ⟨4, hK⟩ =>
    refine concatenate_apply_piece (t := SR) 3 _ _ (ix4 b i j ⟨4, hK⟩) 4 ?_ SR1 _ rfl rfl 4 ?_ (ix4 b i j 0) hi rfl
    · show (4 : Nat) < 5; decide
    · rfl

/-- Merging the pixel and channel axes keeps row-major positions: lane `5 q + k` of row `r` is entry `(r, q, k)`. -/
theorem merge_apply (v : TP5.Idx → α) (h : TP5.ShapeCasts TM) (r : Fin 64) (q : Fin 2048) (k : Fin 5) :
    shapeCast TM v h (ix2 r (lane q k)) = v (ix3 r q k) :=
  shapeCast_apply v h _ _ (by
    rw [Shape.rowMajor_val_three, Shape.rowMajor_val_two]
    show (r.val * 2048 + q.val) * 5 + k.val = r.val * 10240 + (q.val * 5 + k.val)
    omega)

/-- The whole layout of a tile: its merged form with a leading unit axis reads, at lane `5 q + k` of row `r`, plane
    `k` at pixel `(r, q)`. -/
theorem stack_apply (a0 a1 a2 a3 a4 : TP.Idx → α) (h : TP.ShapeCasts TP1)
    (hc : Shape.Concatenates [TP1, TP1, TP1, TP1, TP1] TP5 2) (h5 : TP5.ShapeCasts TM) (h1 : TM.ShapeCasts TM1)
    (u : Fin 1) (r : Fin 64) (q : Fin 2048) (k : Fin 5) :
    shapeCast TM1 (shapeCast TM (concatenate TP5 2 [⟨TP1, shapeCast TP1 a0 h⟩, ⟨TP1, shapeCast TP1 a1 h⟩,
      ⟨TP1, shapeCast TP1 a2 h⟩, ⟨TP1, shapeCast TP1 a3 h⟩, ⟨TP1, shapeCast TP1 a4 h⟩] hc) h5) h1 (ix3 u r (lane q k))
      = pick a0 a1 a2 a3 a4 k (ix2 r q) :=
  (shapeCast_ab_1ab_apply _ h1 u r (lane q k)).trans ((merge_apply _ h5 r q k).trans (join_apply a0 a1 a2 a3 a4 h hc r q k))

/-- A neighbour plane: the [64, 2048] sub-rectangle at offsets `(o₀, o₁)` of the tile's window (its leading unit axis
    dropped) reads, at `(r, q)`, the window at `(0, r + o₀, q + o₁)`. -/
theorem window_apply (w : TW1.Idx → α) (h : TW1.ShapeCasts TW) (o0 o1 : Nat) (ho0 : o0 ≤ 2) (ho1 : o1 ≤ 2)
    (hs : TW.Slices ![o0, o1] TP) (r : Fin 64) (q : Fin 2048) :
    extractStridedSlice TP ![o0, o1] (shapeCast TW w h) hs (ix2 r q)
      = w (ix3 (0 : Fin 1) ⟨r.val + o0, by omega⟩ ⟨q.val + o1, by omega⟩) :=
  (extractStridedSlice_apply ![o0, o1] _ hs (ix2 r q) (ix2 ⟨r.val + o0, by omega⟩ ⟨q.val + o1, by omega⟩) (fun a =>
    match a with
    | ⟨0, _⟩ => by show r.val + o0 = o0 + r.val; omega
    | ⟨1, _⟩ => by show q.val + o1 = o1 + q.val; omega)).trans
    (shapeCast_1ab_ab_apply w h _ _)

end

/-! ## The arithmetic of each channel is entrywise -/

section
variable (vU vD vL vR vC : FVec Ideal TP .f32) (i : TP.Idx)

theorem lap_apply :
    subf (addf (addf (addf vU vD) vL) vR) (mulf (broadcast TP (Scalar.ofBits (F := Ideal) .f32 0x40800000#32)) vC) i
      = lap (vU i) (vD i) (vL i) (vR i) (vC i) := rfl

theorem gx_apply :
    mulf (broadcast TP (Scalar.ofBits (F := Ideal) .f32 0x3F000000#32)) (subf vR vL) i = gx (vL i) (vR i) := rfl

theorem gy_apply :
    mulf (broadcast TP (Scalar.ofBits (F := Ideal) .f32 0x3F000000#32)) (subf vD vU) i = gy (vU i) (vD i) := rfl

theorem square_apply : mulf vC vC i = square (vC i) := rfl

theorem mag_apply :
    sqrt (addf (addf
        (mulf (mulf (broadcast TP (Scalar.ofBits (F := Ideal) .f32 0x3F000000#32)) (subf vR vL))
          (mulf (broadcast TP (Scalar.ofBits (F := Ideal) .f32 0x3F000000#32)) (subf vR vL)))
        (mulf (mulf (broadcast TP (Scalar.ofBits (F := Ideal) .f32 0x3F000000#32)) (subf vD vU))
          (mulf (broadcast TP (Scalar.ofBits (F := Ideal) .f32 0x3F000000#32)) (subf vD vU))))
        (broadcast TP (Scalar.ofBits (F := Ideal) .f32 0x322BCC77#32))) i
      = mag (vU i) (vD i) (vL i) (vR i) := rfl

end

end Cert.Stencil

end
-- ==== Proof.RefValue.lean ====
/-
  The reference computes the stencil features of the padded batch.

  It pads the batch, cuts the four neighbour planes out of the padded array as [8, 2048, 2048] slices at offsets
  (0, 1) above, (2, 1) below, (1, 0) left and (1, 2) right, takes the centre from the batch itself, forms the five
  channel planes entrywise, gives each a trailing unit axis and joins them along it.  Read at `(b, i, j, k)`:
  the join picks plane `k`; a slice at offsets `(o₀, o₁)` reads the padded array at `(b, i + o₀, j + o₁)`; and the batch
  at `(b, i, j)` is the padded array at `(b, i + 1, j + 1)`.  So the result is `Stencil.G` of the padded batch.
-/
import proofs.«133201_j65764539236415_1_alg».proof.Proof.Layout
import proofs.«133201_j65764539236415_1_alg».proof.Proof.Gen.ReferenceIdeal.Run
import proofs.«133201_j65764539236415_1_alg».proof.Proof.Gen.ReferenceIdeal.Read

noncomputable section

namespace Cert.ReferenceIdeal.RefValue

open Idealize.ShloMosaic Idealize.ShloMosaic.ValueIdx Cert.ReferenceIdeal Cert.ReferenceIdeal.Read Cert.Stencil

variable (x : FVec Ideal S8x2048x2048 .f32) (b : Fin 8) (i j : Fin 2048)

/-- The reference's padded array is the padded batch. -/
theorem padded_eq : val_main_v0 (F := Ideal) x = padded x := rfl

/-! ## The four neighbour planes -/

theorem up_eq : val_main_v1 (F := Ideal) x (ix3 b i j) = up (padded x) b i j := by
  rw [val_main_v1_apply, padded_eq]
  unfold up
  refine congrArg (padded x) (funext fun a => ?_)
  match a with
  | ⟨0, _⟩ => rfl
  | ⟨1, _⟩ => rfl
  | ⟨2, _⟩ => exact Fin.ext (by show 1 + j.val = j.val + 1; omega)

theorem down_eq : val_main_v2 (F := Ideal) x (ix3 b i j) = down (padded x) b i j := by
  rw [val_main_v2_apply, padded_eq]
  unfold down
  refine congrArg (padded x) (funext fun a => ?_)
  match a with
  | ⟨0, _⟩ => rfl
  | ⟨1, _⟩ => exact Fin.ext (by show 2 + i.val = i.val + 2; omega)
  | ⟨2, _⟩ => exact Fin.ext (by show 1 + j.val = j.val + 1; omega)

theorem left_eq : val_main_v3 (F := Ideal) x (ix3 b i j) = left (padded x) b i j := by
  rw [val_main_v3_apply, padded_eq]
  unfold left
  refine congrArg (padded x) (funext fun a => ?_)
  match a with
  | ⟨0, _⟩ => rfl
  | ⟨1, _⟩ => exact Fin.ext (by show 1 + i.val = i.val + 1; omega)
  | ⟨2, _⟩ => rfl

theorem right_eq : val_main_v4 (F := Ideal) x (ix3 b i j) = right (padded x) b i j := by
  rw [val_main_v4_apply, padded_eq]
  unfold right
  refine congrArg (padded x) (funext fun a => ?_)
  match a with
  | ⟨0, _⟩ => rfl
  | ⟨1, _⟩ => exact Fin.ext (by show 1 + i.val = i.val + 1; omega)
  | ⟨2, _⟩ => exact Fin.ext (by show 2 + j.val = j.val + 2; omega)

/-! ## The five channel planes -/

theorem lap_eq : val_main_v10 (F := Ideal) x (ix3 b i j)
    = lap (up (padded x) b i j) (down (padded x) b i j) (left (padded x) b i j) (right (padded x) b i j) (centre (padded x) b i j) := by
  rw [← up_eq x b i j, ← down_eq x b i j, ← left_eq x b i j, ← right_eq x b i j, centre_padded]
  rfl

theorem gx_eq : val_main_v13 (F := Ideal) x (ix3 b i j) = gx (left (padded x) b i j) (right (padded x) b i j) := by
  rw [← left_eq x b i j, ← right_eq x b i j]
  rfl

theorem gy_eq : val_main_v16 (F := Ideal) x (ix3 b i j) = gy (up (padded x) b i j) (down (padded x) b i j) := by
  rw [← up_eq x b i j, ← down_eq x b i j]
  rfl

theorem square_eq : val_main_v17 (F := Ideal) x (ix3 b i j) = square (centre (padded x) b i j) := by
  rw [centre_padded]
  rfl

theorem mag_eq : val_main_v23 (F := Ideal) x (ix3 b i j)
    = mag (up (padded x) b i j) (down (padded x) b i j) (left (padded x) b i j) (right (padded x) b i j) := by
  rw [← up_eq x b i j, ← down_eq x b i j, ← left_eq x b i j, ← right_eq x b i j]
  rfl

/-! ## The join -/

/-- The reference's result is the stencil features of the padded batch. -/
theorem result_eq : val_main_v29 (F := Ideal) x = G (padded x) := by
  funext y
  obtain ⟨b, i, j, k, rfl⟩ : ∃ (b : Fin 8) (i j : Fin 2048) (k : Fin 5), y = ix4 b i j k := ⟨y 0, y 1, y 2, y 3, eq_ix4 y⟩
  rw [G_apply]
  unfold val_main_v29
  have e24 : idx_main_v24 (ix4 b i j (0 : Fin 1)) = ix3 b i j := funext fun a => match a with
    | ⟨0, _⟩ => rfl | ⟨1, _⟩ => rfl | ⟨2, _⟩ => rfl
  have e25 : idx_main_v25 (ix4 b i j (0 : Fin 1)) = ix3 b i j := funext fun a => match a with
    | ⟨0, _⟩ => rfl | ⟨1, _⟩ => rfl | ⟨2, _⟩ => rfl
  have e26 : idx_main_v26 (ix4 b i j (0 : Fin 1)) = ix3 b i j := funext fun a => match a with
    | ⟨0, _⟩ => rfl | ⟨1, _⟩ => rfl | ⟨2, _⟩ => rfl
  have e27 : idx_main_v27 (ix4 b i j (0 : Fin 1)) = ix3 b i j := funext fun a => match a with
    | ⟨0, _⟩ => rfl | ⟨1, _⟩ => rfl | ⟨2, _⟩ => rfl
  have e28 : idx_main_v28 (ix4 b i j (0 : Fin 1)) = ix3 b i j := funext fun a => match a with
    | ⟨0, _⟩ => rfl | ⟨1, _⟩ => rfl | ⟨2, _⟩ => rfl
  refine Eq.trans (join4_apply (val_main_v24 (F := Ideal) x) (val_main_v25 (F := Ideal) x) (val_main_v26 (F := Ideal) x)
    (val_main_v27 (F := Ideal) x) (val_main_v28 (F := Ideal) x) _ b i j k) ?_
  match k with
  | ⟨0, _⟩ =>
    show val_main_v24 (F := Ideal) x (ix4 b i j (0 : Fin 1)) = _
    rw [val_main_v24_apply, e24]; exact lap_eq x b i j
  | ⟨1, _⟩ =>
    show val_main_v25 (F := Ideal) x (ix4 b i j (0 : Fin 1)) = _
    rw [val_main_v25_apply, e25]; exact gx_eq x b i j
  | ⟨2, _⟩ =>
    show val_main_v26 (F := Ideal) x (ix4 b i j (0 : Fin 1)) = _
    rw [val_main_v26_apply, e26]; exact gy_eq x b i j
  | ⟨3, _⟩ =>
    show val_main_v27 (F := Ideal) x (ix4 b i j (0 : Fin 1)) = _
    rw [val_main_v27_apply, e27]; exact square_eq x b i j
  | ⟨4, _⟩ =>
    show val_main_v28 (F := Ideal) x (ix4 b i j (0 : Fin 1)) = _
    rw [val_main_v28_apply, e28]; exact mag_eq x b i j

end Cert.ReferenceIdeal.RefValue

end
-- ==== Proof.TileValue.lean ====
/-
  What the kernel body leaves in its output tile.

  At grid point `(b, h)` the body loads rows `64 h … 64 h + 65` of its input block — image `b` of the padded batch, all
  2050 columns — as one [1, 66, 2050] window, forms the five channel planes of the 64 x 2048 pixels whose neighbourhoods
  lie in that window, interleaves them lane by lane and stores the [1, 64, 10240] tile whole.  So entry
  `(0, r, 5 q + k)` of the tile is channel `k` of the pixel whose centre is at row `64 h + r + 1`, column `q + 1` of the
  block (`tile_apply`).  The row offset is computed in 32-bit words as `h * 64`; for `h < 32` that is the number `64 h`.
-/
import proofs.«133201_j65764539236415_1_alg».proof.Proof.Layout
import proofs.«133201_j65764539236415_1_alg».proof.Proof.Gen.KernelIdeal.Frame
import Idealize.ShloMosaic.Lib.Pipeline.Value
import Idealize.ShloMosaic.Lib.Tactic

set_option maxRecDepth 16384

noncomputable section

namespace Cert.KernelIdeal.TileValue

open Idealize.ShloMosaic Idealize.ShloMosaic.TcCoe Idealize.ShloMosaic.ValueIdx Idealize.SL.Sem
open Cert.KernelIdeal Cert.KernelIdeal.Gen Cert.Stencil

/-! ## The stored value at an index, from the loaded window -/

/-- The window's entry `o₀` rows below and `o₁` columns right of its entry `(0, r, q)`. -/
def wAt (w : Vec Ideal S1x66x2050 .f32) (r : Fin 64) (q : Fin 2048) (o0 o1 : Nat) (h0 : o0 ≤ 2) (h1 : o1 ≤ 2) : EReal :=
  w (ix3 (0 : Fin 1) ⟨r.val + o0, by omega⟩ ⟨q.val + o1, by omega⟩)

/-- Lane `5 q + k` of row `r` of the stored tile is channel `k` computed from the window's entries above `(r, q + 1)`,
    below `(r + 2, q + 1)`, left `(r + 1, q)`, right `(r + 1, q + 2)` and at the centre `(r + 1, q + 1)`. -/
theorem pay_apply (w : Vec Ideal S1x66x2050 .f32) (u : Fin 1) (r : Fin 64) (q : Fin 2048) (k : Fin 5) :
    k0_pay1 (F := Ideal) w (ix3 u r (lane q k))
      = feat (wAt w r q 0 1 (by omega) (by omega)) (wAt w r q 2 1 (by omega) (by omega)) (wAt w r q 1 0 (by omega) (by omega))
          (wAt w r q 1 2 (by omega) (by omega)) (wAt w r q 1 1 (by omega) (by omega)) k := by
  have hU := window_apply w shapeCasts_S1x66x2050_S66x2050 0 1 (by omega) (by omega) slices_S66x2050_o0_1_S64x2048 r q
  have hD := window_apply w shapeCasts_S1x66x2050_S66x2050 2 1 (by omega) (by omega) slices_S66x2050_o2_1_S64x2048 r q
  have hC := window_apply w shapeCasts_S1x66x2050_S66x2050 1 1 (by omega) (by omega) slices_S66x2050_o1_1_S64x2048 r q
  have hL := window_apply w shapeCasts_S1x66x2050_S66x2050 1 0 (by omega) (by omega) slices_S66x2050_o1_0_S64x2048 r q
  have hR := window_apply w shapeCasts_S1x66x2050_S66x2050 1 2 (by omega) (by omega) slices_S66x2050_o1_2_S64x2048 r q
  unfold k0_pay1
  refine Eq.trans (stack_apply _ _ _ _ _ _ _ _ _ u r q k) ?_
  match k with
  | ⟨0, _⟩ =>
    refine Eq.trans (lap_apply _ _ _ _ _ _) ?_
    rw [hU, hD, hL, hR, hC]; rfl
  | ⟨1, _⟩ =>
    refine Eq.trans (gx_apply _ _ _) ?_
    rw [hL, hR]; rfl
  | ⟨2, _⟩ =>
    refine Eq.trans (gy_apply _ _ _) ?_
    rw [hU, hD]; rfl
  | ⟨3, _⟩ =>
    refine Eq.trans (square_apply _ _) ?_
    rw [hC]; rfl
  | ⟨4, _⟩ =>
    refine Eq.trans (mag_apply _ _ _ _ _) ?_
    rw [hU, hD, hL, hR]; rfl

/-! ## What the body's one store leaves -/

section
variable {F : FTy → Type} [FloatOps F]

theorem hz3 : (![0, 0, 0] : Fin 3 → Nat) = fun _ => 0 := funext fun a => by fin_cases a <;> rfl

/-- The window the body loads from its input block `x0` at grid point `i`. -/
abbrev win (i : grid0.Coords) (x0 : Vec F S1x2050x2050 .f32) : Vec F S1x66x2050 .f32 :=
  View.ld x0 (Rect.unit (s := S1x2050x2050) (k0_off1 i) S1x66x2050.size (k0_off1_inb i))

/-- The output's staging buffer ends holding the stored value of the loaded window: the body's one store covers the
    whole buffer. -/
theorem out_eq (c : Dev nD) (i : grid0.Coords) (a2 : Memref sig .tc .vmem S1x2050x2050 .f32) (h2 : a2.IsWhole)
    (a3 : Memref sig .tc .vmem S1x64x10240 .f32) (h3 : a3.IsWhole) (x0 : Vec F S1x2050x2050 .f32) :
    out0_A_1 c i a2 h2 a3 h3 x0 = k0_pay1 (win i x0) := by
  unfold out0_A_1
  rw [View.read_writes_eq_canon _ _ _ (cover0_A_1 c i a2 h2 a3 h3 x0)]
  unfold kernelRun0_A
  dsimp only
  sl_unfold_words
  rw [View.canon_unit_zero hz3]
  simp only [View.readAt_eq_ld, h2.read_unread, View.ld_unit_zero (S := S1x64x10240) hz3]
  rfl

/-- The 32-bit product `h * 64` is the number `64 h` for the 32 tile rows. -/
theorem row_off : ∀ h : Fin 32, (Scalar.indexCast (Scalar.muli (BitVec.ofNat 32 h.val) 64#32)).toNat = 64 * h.val := by
  decide

/-- The loaded window's entry `(0, r, q)` is the block's entry `(0, 64 h + r, q)`. -/
theorem win_apply (i : grid0.Coords) (x0 : Vec F S1x2050x2050 .f32) (r : Fin 66) (q : Fin 2050)
    (hr : 64 * (i 1).val + r.val < 2050) :
    win i x0 (ix3 (0 : Fin 1) r q) = x0 (ix3 (0 : Fin 1) ⟨64 * (i 1).val + r.val, hr⟩ q) := by
  show x0 _ = x0 _
  refine congrArg x0 (funext fun a => Fin.ext ?_)
  match a with
  | ⟨0, _⟩ => rfl
  | ⟨1, _⟩ =>
    show (Scalar.indexCast (Scalar.muli (BitVec.ofNat 32 (i 1).val) 64#32)).toNat + 1 * r.val = 64 * (i 1).val + r.val
    rw [row_off (i 1)]; omega
  | ⟨2, _⟩ => show 0 + 1 * q.val = q.val; omega

end

end Cert.KernelIdeal.TileValue

end
-- ==== Proof.ArrayValue.lean ====
/-
  What the kernel's run leaves in its result.

  The region finds the padded batch in its input array (the host pads before the call).  Grid point `t = 32 b + h` takes
  image `b` of it as its input block and writes back block `(b, h)` of the [8, 2048, 10240] output: rows
  `64 h … 64 h + 63` of image `b`, all lanes.  By `TileValue` that block is the merged-layout features `Stencil.Gflat` of
  the padded batch read through the block (`flushed_eq`).  Every index `(b, i, n)` of the output lies in the block of
  point `32 b + i / 64`, so the output array ends holding `Gflat` of the padded batch (`final`), and the host's closing
  reshape, which splits each row's lanes into (pixel, channel), makes the result `Stencil.G` of it (`result_eq`, `run`).
-/
import proofs.«133201_j65764539236415_1_alg».proof.Proof.TileValue
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.Stencil Cert.KernelIdeal.TileValue

variable (m : (ℓ : Loc nD τ sig) → Buf (Elt Ideal) ℓ) (ρ : Dev nD → PrngReg)

/-- The batch as launched, and its padded form. -/
abbrev xarr (c : Dev nD) : FVec Ideal S8x2048x2048 .f32 := m ((c : Thread nD τ).loc main_arg0)
abbrev parr (c : Dev nD) : FVec Ideal S8x2050x2050 .f32 := padded (xarr m c)

/-- The region's input array holds the padded batch: the host's constant, conversion and pad, in order. -/
theorem V_padded (c : Dev nD) : (V m c main_v0 : S8x2050x2050.Idx → EReal) = parr m c := by
  dsimp only [V, V0]
  simp only [hostOps0, hostOps0_1, List.flatten_cons, List.flatten_nil, List.append_nil, List.cons_append, List.nil_append]
  after_results
  rfl

/-! ## The grid's index maps -/

/-- Point `t` is image `t / 32`, tile row `t % 32`: the input block is the whole image, the output block its tile row. -/
theorem idx_in : ∀ t : Fin cfg0.N, win0_0.index t (0 : Fin 3) = t.val / 32 ∧ win0_0.index t (1 : Fin 3) = 0
    ∧ win0_0.index t (2 : Fin 3) = 0 :=
  (by decide +kernel : ∀ t : Fin grid0.N, _)
theorem idx_out : ∀ t : Fin cfg0.N, win0_1.index t (0 : Fin 3) = t.val / 32 ∧ win0_1.index t (1 : Fin 3) = t.val % 32
    ∧ win0_1.index t (2 : Fin 3) = 0 :=
  (by decide +kernel : ∀ t : Fin grid0.N, _)
theorem coord_row : ∀ t : Fin cfg0.N, ((grid0.coords t) 1).val = t.val % 32 :=
  (by decide +kernel : ∀ t : Fin grid0.N, _)

theorem t_lt (t : Fin cfg0.N) : t.val < 256 := Nat.lt_of_lt_of_eq t.isLt N_0

/-! ## The input block and the tile at a point -/

/-- Point `t`'s input block, at its literal type. -/
abbrev blk (c : Dev nD) (t : Fin cfg0.N) : Vec Ideal S1x2050x2050 .f32 := iblk m c 0 t

/-- It is image `t / 32` of the padded batch. -/
theorem blk_apply (c : Dev nD) (t : Fin cfg0.N) (u : Fin 1) (i j : Fin 2050) :
    blk m c t (ix3 u i j) = parr m c (ix3 ⟨t.val / 32, by have := t_lt t; omega⟩ i j) := by
  obtain ⟨e0, e1, e2⟩ := idx_in t
  have hu : u.val = 0 := by omega
  show iblk m c 0 t (ix3 u i j) = _
  unfold iblk
  rw [View.read_apply]
  show V m c main_v0 _ = _
  rw [V_padded]
  refine congrArg (parr m c) (funext fun a => Fin.ext ?_)
  match a with
  | ⟨0, _⟩ => show win0_0.index t (0 : Fin 3) * 1 + 1 * u.val = t.val / 32; omega
  | ⟨1, _⟩ => show win0_0.index t (1 : Fin 3) * 2050 + 1 * i.val = i.val; omega
  | ⟨2, _⟩ => show win0_0.index t (2 : Fin 3) * 2050 + 1 * j.val = j.val; omega

/-- The tile point `t` leaves: rows `64 (t % 32) …` of image `t / 32` of the merged-layout features. -/
theorem tile_apply (c : Dev nD) (t : Fin cfg0.N) (u : Fin 1) (r : Fin 64) (n : Fin 10240) :
    (outsAt0 m c t : S1x64x10240.Idx → EReal) (ix3 u r n)
      = Gflat (parr m c) (ix3 ⟨t.val / 32, by have := t_lt t; omega⟩ ⟨64 * (t.val % 32) + r.val, by omega⟩ n) := by
  obtain ⟨q, k, rfl⟩ : ∃ (q : Fin 2048) (k : Fin 5), n = lane q k := ⟨col n, chan n, (lane_col_chan n).symm⟩
  have hrow := coord_row t
  have e : ∀ (o0 o1 : Nat) (h0 : o0 ≤ 2) (h1 : o1 ≤ 2),
      wAt (win (grid0.coords t) (blk m c t)) r q o0 o1 h0 h1
        = parr m c (ix3 ⟨t.val / 32, by have := t_lt t; omega⟩ ⟨64 * (t.val % 32) + r.val + o0, by omega⟩ ⟨q.val + o1, by omega⟩) := by
    intro o0 o1 h0 h1
    unfold wAt
    refine Eq.trans (win_apply (grid0.coords t) (blk m c t) ⟨r.val + o0, by omega⟩ ⟨q.val + o1, by omega⟩ (by rw [hrow]; omega)) ?_
    refine Eq.trans (blk_apply m c t 0 _ _) ?_
    refine congrArg (parr m c) (funext fun a => Fin.ext ?_)
    match a with
    | ⟨0, _⟩ => rfl
    | ⟨1, _⟩ => show 64 * ((grid0.coords t) 1).val + (r.val + o0) = 64 * (t.val % 32) + r.val + o0; rw [hrow]; omega
    | ⟨2, _⟩ => rfl
  unfold outsAt0
  refine Eq.trans (congrFun (out_eq (F := Ideal) c (grid0.coords t) (ms0_0 t) (hs0_0 t) (ms0_1 t) (hs0_1 t) (blk m c t)) (ix3 u r (lane q k))) ?_
  refine Eq.trans (pay_apply (win (grid0.coords t) (blk m c t)) u r q k) ?_
  rw [Gflat_apply, e 0 1, e 2 1, e 1 0, e 1 2, e 1 1]
  rfl

/-! ## The output array -/

/-- What the output array ends holding. -/
abbrev oarr (c : Dev nD) : FVec Ideal S8x2048x10240 .f32 := Gflat (parr m c)

/-- What point `t` writes back is its block of it. -/
theorem flushed_eq (c : Dev nD) (t : Fin cfg0.N) :
    (dats m 0 c).flushed 1 t = ((cfg0.win 1).blk t).view.read (Elt Ideal) (oarr m c) := by
  show (cfg0.win 1).cut (grid0.coords t) ((dats m 0 c).after 1 t) = _
  rw [after0_1]
  obtain ⟨e0, e1, e2⟩ := idx_out t
  funext y
  obtain ⟨u, r, n, rfl⟩ : ∃ (u : Fin 1) (r : Fin 64) (n : Fin 10240), y = ix3 u r n := ⟨y 0, y 1, y 2, eq_ix3 y⟩
  have hu : u.val = 0 := by omega
  show (outsAt0 m c t : S1x64x10240.Idx → EReal) (ix3 u r n) = oarr m c (((cfg0.win 1).blk t).view.emb (ix3 u r n))
  rw [tile_apply m c t u r n]
  refine congrArg (Gflat (parr m c)) (funext fun a => Fin.ext ?_)
  match a with
  | ⟨0, _⟩ => show t.val / 32 = win0_1.index t (0 : Fin 3) * 1 + 1 * u.val; omega
  | ⟨1, _⟩ => show 64 * (t.val % 32) + r.val = win0_1.index t (1 : Fin 3) * 64 + 1 * r.val; omega
  | ⟨2, _⟩ => show n.val = win0_1.index t (2 : Fin 3) * 10240 + 1 * n.val; omega

/-- An index of the output is in point `t`'s block iff each coordinate is in the block's range on its axis. -/
theorem mem_blk (t : Fin cfg0.N) (i : S8x2048x10240.Idx) :
    i ∈ ((cfg0.win 1).blk t).view.set ↔ ∀ a : Fin 3, win0_1.index t a * S1x64x10240.size a ≤ (i a).val
      ∧ (i a).val < win0_1.index t a * S1x64x10240.size a + S1x64x10240.size a := by
  show i ∈ ((View.whole main_v1).slice (win0_1.rect t)).set ↔ _
  rw [View.set_slice_whole, Rect.mem_set_unit]
  exact Iff.rfl

/-- Row `i` of image `b` is written back by point `32 b + i / 64`. -/
theorem cover (i : S8x2048x10240.Idx) :
    ∃ t : Fin cfg0.N, (cfg0.win 1).flush t = true ∧ i ∈ ((cfg0.win 1).blk t).view.set := by
  have h0 : (i 0).val < 8 := (i 0).isLt
  have h1 : (i 1).val < 2048 := (i 1).isLt
  have h2 : (i 2).val < 10240 := (i 2).isLt
  have hN : cfg0.N = 256 := N_0
  refine ⟨⟨32 * (i 0).val + (i 1).val / 64, by rw [hN]; omega⟩, flush0_1 _, ?_⟩
  rw [mem_blk]
  obtain ⟨e0, e1, e2⟩ := idx_out ⟨32 * (i 0).val + (i 1).val / 64, by rw [hN]; omega⟩
  intro a
  match a with
  | ⟨0, _⟩ =>
    show win0_1.index _ (0 : Fin 3) * 1 ≤ (i 0).val ∧ (i 0).val < win0_1.index _ (0 : Fin 3) * 1 + 1
    rw [e0]; dsimp only; omega
  | ⟨1, _⟩ =>
    show win0_1.index _ (1 : Fin 3) * 64 ≤ (i 1).val ∧ (i 1).val < win0_1.index _ (1 : Fin 3) * 64 + 64
    rw [e1]; dsimp only; omega
  | ⟨2, _⟩ =>
    show win0_1.index _ (2 : Fin 3) * 10240 ≤ (i 2).val ∧ (i 2).val < win0_1.index _ (2 : Fin 3) * 10240 + 10240
    rw [e2]; omega

/-- The output array after the run. -/
theorem final (c : Dev nD) : (dats m 0 c).arrAt 1 cfg0.N = oarr m c :=
  (dats m 0 c).arrAt_eq_of_cover 1 (oarr m c) (fun t _ => flushed_eq m c t) cover

/-! ## The closing reshape, and the run -/

/-- The result buffer after the host's reshape of the output array. -/
theorem result_eq (c : Dev nD) :
    (Pipeline.afterTail₀ cfgs (dats m) 0 (V0 m) [hostOps1] c main_v2 : S8x2048x2048x5.Idx → EReal) = G (parr m c) := by
  have hw : Pipeline.withArrays (cfgs 0).spec c (V0 m c) (fun w => (dats m 0 c).arrAt w (cfgs 0).N) (Proc.devRef .tc main_v1)
      = oarr m c := (Pipeline.withArrays_arr spec0 launch0.win.arr_inj c _ _ 1).trans (final m c)
  unfold Pipeline.afterTail₀
  show StableHlo.after hostOps1 _ (Proc.devRef .tc main_v2) = _
  after_results
  show shapeCast S8x2048x2048x5 (Pipeline.withArrays (cfgs 0).spec c (V0 m c) (fun w => (dats m 0 c).arrAt w (cfgs 0).N)
    (Proc.devRef .tc main_v1)) shapeCasts_S8x2048x10240_S8x2048x2048x5 = _
  rw [hw]
  exact cast_Gflat _ _

/-- The run, read: the result buffer at the stencil features of the padded batch, the batch unchanged. -/
theorem run : θ_run defs (onTc (τ := τ) (main (F := Ideal))) ⟨m, fun _ => 0, ρ⟩ fun r => ∀ c : Dev nD,
      r.2.mem ((c.tc : Thread nD τ).loc main_v2) = G (parr m c)
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c)⟩)
    (run_main m ρ)

end Cert.KernelIdeal.ArrayValue

end
-- ==== Proof.lean ====
/-
  The five spatial features of a batch of images — Laplacian, the two central differences, the square, the regularised
  gradient magnitude — computed by a tiled kernel and by a whole-array reference: the two results are equal, entry by
  entry, on the extended reals.

  Both programs first pad the batch with a one-pixel border and take every neighbour from the padded array.  The
  reference cuts four shifted [8, 2048, 2048] planes out of it; the kernel walks a grid of 8 images by 32 row tiles,
  loads the 66 x 2050 window a tile's neighbourhoods lie in, and writes a 64 x 10240 tile with the five channels of a
  pixel in five consecutive lanes, which the host finally splits into a trailing channel axis.  Each program performs
  the same additions, subtractions, products and square root, on the same three constants, in the same order, so no
  law of arithmetic is needed: the proof is that the two index paths to each entry agree.
    Spec       the features as one function `Stencil.G` of the padded array, and its merged-lane form
    Layout     how a tile and the joined result are laid out, over arbitrary arrays
    RefValue   the reference's result is `G` of the padded batch
    TileValue  what the kernel body stores, entry by entry, from its window
    ArrayValue what the kernel's run leaves in its result: `G` of the padded batch
  The kernel's and its idealization's frames are the generated ones; the reference's frame is its generated run.
  The idealization rewrote nothing, so it preserves the kernel trivially.
-/
import proofs.«133201_j65764539236415_1_alg».proof.Defs
import proofs.«133201_j65764539236415_1_alg».proof.Proof.Gen.Kernel
import proofs.«133201_j65764539236415_1_alg».proof.Proof.Gen.Kernel.Skeleton
import proofs.«133201_j65764539236415_1_alg».proof.Proof.Gen.Kernel.Launch
import proofs.«133201_j65764539236415_1_alg».proof.Proof.Gen.Kernel.Points
import proofs.«133201_j65764539236415_1_alg».proof.Proof.Gen.Kernel.Frame
import proofs.«133201_j65764539236415_1_alg».proof.Proof.Gen.KernelIdeal
import proofs.«133201_j65764539236415_1_alg».proof.Proof.Gen.KernelIdeal.Skeleton
import proofs.«133201_j65764539236415_1_alg».proof.Proof.Gen.KernelIdeal.Launch
import proofs.«133201_j65764539236415_1_alg».proof.Proof.Gen.KernelIdeal.Points
import proofs.«133201_j65764539236415_1_alg».proof.Proof.Gen.KernelIdeal.Frame
import proofs.«133201_j65764539236415_1_alg».proof.Proof.Gen.ReferenceIdeal
import proofs.«133201_j65764539236415_1_alg».proof.Proof.Gen.ReferenceIdeal.Run
import proofs.«133201_j65764539236415_1_alg».proof.Proof.Gen.ReferenceIdeal.Read
import proofs.«133201_j65764539236415_1_alg».proof.Proof.Gen.Pre_finite_inputs
import proofs.«133201_j65764539236415_1_alg».proof.Proof.RefValue
import proofs.«133201_j65764539236415_1_alg».proof.Proof.ArrayValue
import Idealize.ShloMosaic.Adequacy
import Idealize.ShloMosaic.Init

noncomputable section

namespace Cert.Proof

open Idealize.ShloMosaic Idealize.SL.Sem

/-- The kernel and its idealization terminate without a fault and leave the batch as it was. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the batch, both idealized programs end with the stencil features of the padded batch. -/
theorem algebraic : Cert.algebraic_KernelIdeal_ReferenceIdeal := by
  intro m ρ m' ρ' _ hagree
  refine ⟨fun c => Cert.Stencil.G (Cert.KernelIdeal.ArrayValue.parr m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
